-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S1048576x48 : Shape := ⟨2, ![1048576, 48]⟩
abbrev S48 : Shape := ⟨1, ![48]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S1048576x48 : S_.BroadcastsInDim S1048576x48 (![] : Fin 0 → Fin S1048576x48.rank)
  reducesTo_S1048576x48_S_d0_1 : S1048576x48.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg3 : IVec S48 32) (main_v15 : IVec S_ 1) (main_c_5 : IVec S_ 32) : IVec S_ 1 :=
  let main_v16 : IVec S48 32 := broadcastInDim S48 ![] bcast_S_S48 main_c_5
  let main_v17 : IVec S48 1 := cmpi .sge main_arg3 main_v16
  let main_c_6 : IVec S_ 32 := constantI S_ 32 32#32
  let main_v18 : IVec S48 32 := broadcastInDim S48 ![] bcast_S_S48 main_c_6
  let main_v19 : IVec S48 1 := cmpi .slt main_arg3 main_v18
  let main_v20 : IVec S48 1 := andi main_v17 main_v19
  let main_c_7 : IVec S_ 1 := constantI S_ 1 1#1
  let main_v21 : IVec S_ 1 := (fun x v => Host.reduce IntOp.andi x v reducesTo_S48_S_d0 h_S_) main_v20 main_c_7
  let main_v22 : IVec S_ 1 := andi main_v15 main_v21
  main_v22

def fn {F : FTy → Type} [FloatOps F] (main_arg0 : FVec F S1048576x32 .f32) (main_arg1 : FVec F S1048576x48 .f32) (main_arg2 : IVec S48 32) (main_arg3 : IVec S48 32) (main_arg4 : IVec S48 1) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x48 .f32 := Host.absf main_arg1
  let main_cst_0 : FVec F S_ .f32 := constant S_ .f32 0x7F800000#32
  let main_v5 : FVec F S1048576x48 .f32 := broadcastInDim S1048576x48 ![] bcast_S_S1048576x48 main_cst_0
  let main_v6 : IVec S1048576x48 1 := cmpf .olt main_v4 main_v5
  let main_c_1 : IVec S_ 1 := constantI S_ 1 1#1
  let main_v7 : IVec S_ 1 := (fun x v => Host.reduce IntOp.andi x v reducesTo_S1048576x48_S_d0_1 h_S_) main_v6 main_c_1
  let main_v8 : IVec S_ 1 := andi main_v3 main_v7
  let main_c_2 : IVec S_ 32 := constantI S_ 32 0#32
  let main_v9 : IVec S48 32 := broadcastInDim S48 ![] bcast_S_S48 main_c_2
  let main_v10 : IVec S48 1 := cmpi .sge main_arg2 main_v9
  let main_c_3 : IVec S_ 32 := constantI S_ 32 32#32
  let main_v11 : IVec S48 32 := broadcastInDim S48 ![] bcast_S_S48 main_c_3
  let main_v12 : IVec S48 1 := cmpi .slt main_arg2 main_v11
  let main_v13 : IVec S48 1 := andi main_v10 main_v12
  let main_c_4 : IVec S_ 1 := constantI S_ 1 1#1
  let main_v14 : IVec S_ 1 := (fun x v => Host.reduce IntOp.andi x v reducesTo_S48_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S1048576x32 : Shape := ⟨2, ![1048576, 32]⟩
abbrev S1048576x48 : Shape := ⟨2, ![1048576, 48]⟩
abbrev S48 : Shape := ⟨1, ![48]⟩
abbrev S48x1 : Shape := ⟨2, ![48, 1]⟩
abbrev S1x32 : Shape := ⟨2, ![1, 32]⟩
abbrev S48x32 : Shape := ⟨2, ![48, 32]⟩
abbrev S32x48 : Shape := ⟨2, ![32, 48]⟩
abbrev S1x48 : Shape := ⟨2, ![1, 48]⟩
abbrev S4096x32 : Shape := ⟨2, ![4096, 32]⟩
abbrev S4096x48 : Shape := ⟨2, ![4096, 48]⟩

abbrev nBuf : Space → Nat
  | .hbm => 23
  | .vmem => 11
  | .smem => 0
  | _ => 0

abbrev bufTy : (tb : Table) → Fin (tcTables nBuf tb) → BufTy
  | .hbm, ⟨0, _⟩ => ⟨S1048576x32, .f32⟩
  | .hbm, ⟨1, _⟩ => ⟨S1048576x48, .f32⟩
  | .hbm, ⟨2, _⟩ => ⟨S48, .i32⟩
  | .hbm, ⟨3, _⟩ => ⟨S48, .i32⟩
  | .hbm, ⟨4, _⟩ => ⟨S48, .i1⟩
  | .hbm, ⟨5, _⟩ => ⟨S48x1, .i32⟩
  | .hbm, ⟨6, _⟩ => ⟨S1x32, .i32⟩
  | .hbm, ⟨7, _⟩ => ⟨S48x32, .i32⟩
  | .hbm, ⟨8, _⟩ => ⟨S48x32, .i32⟩
  | .hbm, ⟨9, _⟩ => ⟨S48x32, .i1⟩
  | .hbm, ⟨10, _⟩ => ⟨S48x32, .f32⟩
  | .hbm, ⟨11, _⟩ => ⟨S32x48, .f32⟩
  | .hbm, ⟨12, _⟩ => ⟨S48x1, .i32⟩
  | .hbm, ⟨13, _⟩ => ⟨S1x32, .i32⟩
  | .hbm, ⟨14, _⟩ => ⟨S48x32, .i32⟩
  | .hbm, ⟨15, _⟩ => ⟨S48x32, .i32⟩
  | .hbm, ⟨16, _⟩ => ⟨S48x32, .i1⟩
  | .hbm, ⟨17, _⟩ => ⟨S48x32, .f32⟩
  | .hbm, ⟨18, _⟩ => ⟨S32x48, .f32⟩
  | .hbm, ⟨19, _⟩ => ⟨S48, .f32⟩
  | .hbm, ⟨20, _⟩ => ⟨S1x48, .f32⟩
  | .hbm, ⟨21, _⟩ => ⟨S1048576x48, .f32⟩
  | .hbm, ⟨22, _⟩ => ⟨S1048576x48, .f32⟩
  | .local _ .vmem, ⟨0, _⟩ => ⟨S4096x32, .f32⟩
  | .local _ .vmem, ⟨1, _⟩ => ⟨S4096x32, .f32⟩
  | .local _ .vmem, ⟨2, _⟩ => ⟨S4096x48, .f32⟩
  | .local _ .vmem, ⟨3, _⟩ => ⟨S4096x48, .f32⟩
  | .local _ .vmem, ⟨4, _⟩ => ⟨S32x48, .f32⟩
  | .local _ .vmem, ⟨5, _⟩ => ⟨S32x48, .f32⟩
  | .local _ .vmem, ⟨6, _⟩ => ⟨S1x48, .f32⟩
  | .local _ .vmem, ⟨7, _⟩ => ⟨S4096x48, .f32⟩
  | .local _ .vmem, ⟨8, _⟩ => ⟨S4096x48, .f32⟩
  | .local _ .vmem, ⟨9, _⟩ => ⟨S4096x48, .f32⟩
  | .local _ .vmem, ⟨10, _⟩ => ⟨S4096x48, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S48_S48x1_0 : S48.BroadcastsInDim S48x1 (![0] : Fin 1 → Fin S48x1.rank)
  bcast_S48x1_S48x32_0_1 : S48x1.BroadcastsInDim S48x32 (![0, 1] : Fin 2 → Fin S48x32.rank)
  bcast_S1x32_S48x32_0_1 : S1x32.BroadcastsInDim S48x32 (![0, 1] : Fin 2 → Fin S48x32.rank)
  transposes_S48x32_S32x48_1_0 : S48x32.Transposes [1, 0] S32x48
  shapeCasts_S48_S1x48 : S48.ShapeCasts S1x48
  inb_S4096x32_S4096x32_0_0 : ∀ a, (![0, 0] : Fin 2 → Nat) a + S4096x32.size a ≤ S4096x32.size a
  h_S4096x32 : 0 < S4096x32.numel
  inb_S4096x48_S4096x48_0_0 : ∀ a, (![0, 0] : Fin 2 → Nat) a + S4096x48.size a ≤ S4096x48.size a
  h_S4096x48 : 0 < S4096x48.numel
  inb_S32x48_S32x48_0_0 : ∀ a, (![0, 0] : Fin 2 → Nat) a + S32x48.size a ≤ S32x48.size a
  h_S32x48 : 0 < S32x48.numel
  shapeCasts_S32x48_S32x48 : S32x48.ShapeCasts S32x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S4096x48 : S1x48.Broadcasts S4096x48
  dot_S4096x32_S32x48_S4096x48_1_0_0_1_n_n_wf : DotDims.WF S4096x32 S32x48 S4096x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S1048576x32.size a
  hwx0_0 : ∀ i : grid0.Coords, EltTy.bits .f32 = 32 ∨ (Rect.block (s := S1048576x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x48.size a ≤ S1048576x48.size a
  hwx0_1 : ∀ i : grid0.Coords, EltTy.bits .f32 = 32 ∨ (Rect.block (s := S1048576x48) S4096x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x48.size a ≤ S32x48.size a
  hwx0_2 : ∀ i : grid0.Coords, EltTy.bits .f32 = 32 ∨ (Rect.block (s := S32x48) S32x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x48.size a ≤ S32x48.size a
  hwx0_3 : ∀ i : grid0.Coords, EltTy.bits .f32 = 32 ∨ (Rect.block (s := S32x48) S32x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x48.size a ≤ S1x48.size a
  hwx0_4 : ∀ i : grid0.Coords, EltTy.bits .f32 = 32 ∨ (Rect.block (s := S1x48) S1x48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x48.size a ≤ S1048576x48.size a
  hwx0_5 : ∀ i : grid0.Coords, EltTy.bits .f32 = 32 ∨ (Rect.block (s := S1048576x48) S4096x48.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x48.size a ≤ S1048576x48.size a
  hwx0_6 : ∀ i : grid0.Coords, EltTy.bits .f32 = 32 ∨ (Rect.block (s := S1048576x48) S4096x48.size (cc0_transform_6 i) (hinb0_6 i)).WholeWords (EltTy.packing .f32)

variable [Facts₀]

def dot_S4096x32_S32x48_S4096x48_1_0_0_1_n_n : DotDims S4096x32 S32x48 S4096x48 where
  lhsContracting := [1]
  rhsContracting := [0]
  lhsNonContracting := [0]
  rhsNonContracting := [1]
  lhsBatch := []
  rhsBatch := []
  wf := dot_S4096x32_S32x48_S4096x48_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S4096x48.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S4096x48.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S1048576x48 : Shape := ⟨2, ![1048576, 48]⟩
abbrev S48 : Shape := ⟨1, ![48]⟩
abbrev S_ : Shape := ⟨0, ![]⟩
abbrev S48x1 : Shape := ⟨2, ![48, 1]⟩
abbrev S1x48 : Shape := ⟨2, ![1, 48]⟩

abbrev nBuf : Space → Nat
  | .hbm => 46
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x48, .f32⟩
  | .hbm, ⟨2, _⟩ => ⟨S48, .i32⟩
  | .hbm, ⟨3, _⟩ => ⟨S48, .i32⟩
  | .hbm, ⟨4, _⟩ => ⟨S48, .i1⟩
  | .hbm, ⟨5, _⟩ => ⟨S_, .i32⟩
  | .hbm, ⟨6, _⟩ => ⟨S48, .i32⟩
  | .hbm, ⟨7, _⟩ => ⟨S48, .i1⟩
  | .hbm, ⟨8, _⟩ => ⟨S_, .i32⟩
  | .hbm, ⟨9, _⟩ => ⟨S48, .i32⟩
  | .hbm, ⟨10, _⟩ => ⟨S48, .i32⟩
  | .hbm, ⟨11, _⟩ => ⟨S48, .i32⟩
  | .hbm, ⟨12, _⟩ => ⟨S48x1, .i32⟩
  | .hbm, ⟨13, _⟩ => ⟨S1048576x48, .f32⟩
  | .hbm, ⟨14, _⟩ => ⟨S_, .i32⟩
  | .hbm, ⟨15, _⟩ => ⟨S48, .i32⟩
  | .hbm, ⟨16, _⟩ => ⟨S48, .i1⟩
  | .hbm, ⟨17, _⟩ => ⟨S_, .i32⟩
  | .hbm, ⟨18, _⟩ => ⟨S48, .i32⟩
  | .hbm, ⟨19, _⟩ => ⟨S48, .i32⟩
  | .hbm, ⟨20, _⟩ => ⟨S48, .i32⟩
  | .hbm, ⟨21, _⟩ => ⟨S48x1, .i32⟩
  | .hbm, ⟨22, _⟩ => ⟨S1048576x48, .f32⟩
  | .hbm, ⟨23, _⟩ => ⟨S1048576x48, .f32⟩
  | .hbm, ⟨24, _⟩ => ⟨S1048576x48, .f32⟩
  | .hbm, ⟨25, _⟩ => ⟨S_, .f32⟩
  | .hbm, ⟨26, _⟩ => ⟨S1048576x48, .f32⟩
  | .hbm, ⟨27, _⟩ => ⟨S1048576x48, .f32⟩
  | .hbm, ⟨28, _⟩ => ⟨S1048576x48, .f32⟩
  | .hbm, ⟨29, _⟩ => ⟨S_, .f32⟩
  | .hbm, ⟨30, _⟩ => ⟨S1048576x48, .f32⟩
  | .hbm, ⟨31, _⟩ => ⟨S1048576x48, .f32⟩
  | .hbm, ⟨32, _⟩ => ⟨S1048576x48, .f32⟩
  | .hbm, ⟨33, _⟩ => ⟨S1048576x48, .f32⟩
  | .hbm, ⟨34, _⟩ => ⟨S_, .f32⟩
  | .hbm, ⟨35, _⟩ => ⟨S1048576x48, .f32⟩
  | .hbm, ⟨36, _⟩ => ⟨S1048576x48, .f32⟩
  | .hbm, ⟨37, _⟩ => ⟨S1048576x48, .f32⟩
  | .hbm, ⟨38, _⟩ => ⟨S_, .f32⟩
  | .hbm, ⟨39, _⟩ => ⟨S1048576x48, .f32⟩
  | .hbm, ⟨40, _⟩ => ⟨S1048576x48, .f32⟩
  | .hbm, ⟨41, _⟩ => ⟨S1x48, .i1⟩
  | .hbm, ⟨42, _⟩ => ⟨S_, .f32⟩
  | .hbm, ⟨43, _⟩ => ⟨S1048576x48, .f32⟩
  | .hbm, ⟨44, _⟩ => ⟨S1048576x48, .i1⟩
  | .hbm, ⟨45, _⟩ => ⟨S1048576x48, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_call0_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S48 : S_.BroadcastsInDim S48 (![] : Fin 0 → Fin S48.rank)
  bcast_S48_S48x1_0 : S48.BroadcastsInDim S48x1 (![0] : Fin 1 → Fin S48x1.rank)
  bcast_S_S1048576x48 : S_.BroadcastsInDim S1048576x48 (![] : Fin 0 → Fin S1048576x48.rank)
  bcast_S48_S1x48_1 : S48.BroadcastsInDim S1x48 (![1] : Fin 1 → Fin S1x48.rank)
  bcast_S1x48_S1048576x48_0_1 : S1x48.BroadcastsInDim S1048576x48 (![0, 1] : Fin 2 → Fin S1048576x48.rank)
  gather_S1048576x32_S48x1_S1048576x48_0_1_n_n_1_1_10485761_wf : GatherDims.WF S1048576x32 S48x1 S1048576x48 [0] [1] [] [1] [] 1 ![1048576, 1]

variable [Facts₀]

def gather_S1048576x32_S48x1_S1048576x48_0_1_n_n_1_1_10485761 : GatherDims S1048576x32 S48x1 S1048576x48 where
  offsetDims := [0]
  collapsedSliceDims := [1]
  operandBatchingDims := []
  startIndicesBatchingDims := []
  startIndexMap := [1]
  indexVectorDim := 1
  sliceSizes := ![1048576, 1]
  wf := gather_S1048576x32_S48x1_S1048576x48_0_1_n_n_1_1_10485761_wf

class Facts : Prop extends Facts₀ where

variable [Facts]
-- ==== Proof.IndexRange.lean ====
/-
  What the precondition says of the two index arrays. The precondition is a conjunction of four `all` reductions: the
  two float arrays finite, and, for each of the two index arrays, every word at least 0 and below 32 as a signed
  integer. A word in [0, 32) signed is below 32 as a natural number, so it names a column of the 32-column matrix.
-/
import proofs.«409258_j16604343567213_1_alg».proof.Pre_finite_inputs
import Idealize.ShloMosaic.Lib.ReduceAll
import Idealize.ShloMosaic.Lib.ValueIdx
import Idealize.ShloMosaic.Lib.StableHlo.Predicate

noncomputable section

namespace Cert.Proof.IndexRange

open Idealize.ShloMosaic Idealize.ShloMosaic.ValueIdx Cert.Pre_finite_inputs

variable [Cert.Pre_finite_inputs.Facts]

instance : Subsingleton S_.Idx := ⟨fun _ _ => funext fun d => d.elim0⟩

/-- A word that is at least 0 and below 32, both read signed, is below 32 read unsigned. -/
theorem toNat_lt (w : BitVec 32) (h0 : IntOp.cmpi .sge w (0#32) = 1#1) (h1 : IntOp.cmpi .slt w (32#32) = 1#1) :
    w.toNat < 32 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- Under the precondition every word of both index arrays names one of the 32 columns. -/
theorem words_lt {F : FTy → Type} [FloatOps F] (a0 : FVec F S1048576x32 .f32) (a1 : FVec F S1048576x48 .f32)
    (a2 a3 : IVec S48 32) (a4 : IVec S48 1)
    (h : Cert.Pre_finite_inputs.fn (F := F) a0 a1 a2 a3 a4 = fun _ => 1#1) (j : Fin 48) :
    (a2 (ix1 j)).toNat < 32 ∧ (a3 (ix1 j)).toNat < 32 := by
  have e := congrFun h ix0
  dsimp only [Cert.Pre_finite_inputs.fn, Cert.Pre_finite_inputs.fn_part1] at e
  obtain ⟨e1, eTo⟩ := IntOp.andi_eq_one.1 e
  obtain ⟨_, eFrom⟩ := IntOp.andi_eq_one.1 e1
  have hf := Host.reduce_andi_all _ _ _ _ _ eFrom (ix1 j)
  have ht := Host.reduce_andi_all _ _ _ _ _ eTo (ix1 j)
  obtain ⟨hf0, hf1⟩ := IntOp.andi_eq_one.1 hf
  obtain ⟨ht0, ht1⟩ := IntOp.andi_eq_one.1 ht
  exact ⟨toNat_lt _ hf0 hf1, toNat_lt _ ht0 ht1⟩

end Cert.Proof.IndexRange

end
-- ==== Proof.Rates.lean ====
/-
  The function both programs compute. For a row b and a transition j the forward rate is

      pref · exp(-(barrier[b, j] - state[b, from[j]]) · invRT)

  and the reverse rate is the same expression with `to` in place of `from` where transition j is reversible, and 0
  where it is not. `pref` and `invRT` are the two f32 words both programs carry (the Eyring prefactor k_B·T/h and
  1/(R·T)); they are never evaluated: the same word stands on both sides.
-/
import Idealize.ShloMosaic.PureOps.Ideal
import Idealize.ShloMosaic.PureOps.Ideal.Laws
import Idealize.ShloMosaic.Lib.ValueIdx

noncomputable section

namespace Cert.Proof.Rates

open Idealize.ShloMosaic Idealize.ShloMosaic.ValueIdx

/-- The Eyring prefactor, as the extended real its f32 word denotes. -/
def pref : EReal := Ideal.ofBits .f32 0x54B4CE45#32
/-- 1/(R·T), as the extended real its f32 word denotes. -/
def invRT : EReal := Ideal.ofBits .f32 0x3ECE89D9#32

/-- The Eyring rate over a barrier `bar` from an endpoint of energy `g`. -/
def rate (bar g : EReal) : EReal := pref * Ideal.exp (-(bar - g) * invRT)

/-- The column of the 32-column state matrix a word names (taken mod 32 so that it is total; the precondition keeps every
    word below 32). -/
def col (w : BitVec 32) : Fin 32 := ⟨w.toNat % 32, Nat.mod_lt _ (by decide)⟩

theorem col_val (w : BitVec 32) (hw : w.toNat < 32) : (col w).val = w.toNat := Nat.mod_eq_of_lt hw

theorem col_eq (w : BitVec 32) (hw : w.toNat < 32) : col w = ⟨w.toNat, hw⟩ := Fin.ext (col_val w hw)

abbrev SState : Shape := ⟨2, ![1048576, 32]⟩
abbrev SRates : Shape := ⟨2, ![1048576, 48]⟩
abbrev STrans : Shape := ⟨1, ![48]⟩

/-- The forward rate of row b, transition j. -/
def fwdAt (x : SState.Idx → EReal) (bar : SRates.Idx → EReal) (fi : STrans.Idx → BitVec 32) (b : Fin 1048576) (j : Fin 48) : EReal :=
  rate (bar (ix2 b j)) (x (ix2 b (col (fi (ix1 j)))))

/-- The reverse rate of row b, transition j: the rate from the `to` endpoint where the transition is reversible, else 0. -/
def revAt (x : SState.Idx → EReal) (bar : SRates.Idx → EReal) (ti : STrans.Idx → BitVec 32) (r : STrans.Idx → BitVec 1)
    (b : Fin 1048576) (j : Fin 48) : EReal :=
  if r (ix1 j) = 1#1 then rate (bar (ix2 b j)) (x (ix2 b (col (ti (ix1 j))))) else 0

/-- The array of forward rates. -/
def fwd (x : SState.Idx → EReal) (bar : SRates.Idx → EReal) (fi : STrans.Idx → BitVec 32) : SRates.Idx → EReal :=
  fun i => fwdAt x bar fi (i 0) (i 1)

/-- The array of reverse rates. -/
def rev (x : SState.Idx → EReal) (bar : SRates.Idx → EReal) (ti : STrans.Idx → BitVec 32) (r : STrans.Idx → BitVec 1) :
    SRates.Idx → EReal :=
  fun i => revAt x bar ti r (i 0) (i 1)

theorem fwd_apply (x : SState.Idx → EReal) (bar : SRates.Idx → EReal) (fi : STrans.Idx → BitVec 32) (b : Fin 1048576) (j : Fin 48) :
    fwd x bar fi (ix2 b j) = fwdAt x bar fi b j := rfl

theorem rev_apply (x : SState.Idx → EReal) (bar : SRates.Idx → EReal) (ti : STrans.Idx → BitVec 32) (r : STrans.Idx → BitVec 1)
    (b : Fin 1048576) (j : Fin 48) : rev x bar ti r (ix2 b j) = revAt x bar ti r b j := rfl

/-- A reversibility bit as a number: 1 or 0. -/
theorem bit_toNat (r : BitVec 1) : (((r.toNat : ℝ) : EReal)) = if r = 1#1 then 1 else 0 := by
  rcases BitVec.eq_zero_or_eq_one r with h | h <;> subst h <;> simp

/-- Multiplying a rate by the reversibility bit selects it or 0 (on the extended reals x · 0 = 0 for every x). -/
theorem mul_bit (v : EReal) (r : BitVec 1) : v * (((r.toNat : ℝ) : EReal)) = if r = 1#1 then v else 0 := by
  rw [bit_toNat]
  split
  · exact mul_one v
  · exact mul_zero v

/-- The kernel negates by subtracting from the zero word. -/
theorem zero_word_sub (v : EReal) : Ideal.ofBits .f32 0x00000000#32 - v = -v := by
  rw [Ideal.ofBits_zero_f32, zero_sub]

end Cert.Proof.Rates

end
-- ==== Proof.Payload.lean ====
/-
  The kernel body's two payloads, read at an index. Each is `pref · exp((0 - (barrier - state · onehot)) · invRT)`,
  the second multiplied by the reversibility row; `state · onehot` is the MXU product of the [4096, 32] state block with
  a [32, 48] table, which at the ideal values is the plain sum over the 32 columns.
-/
import proofs.«409258_j16604343567213_1_alg».proof.Proof.Gen.KernelIdeal.Skeleton
import proofs.«409258_j16604343567213_1_alg».proof.Proof.Rates
import Idealize.ShloMosaic.Lib.Pipeline.Value
import Idealize.ShloMosaic.Lib.ValueLayout

noncomputable section

namespace Cert.Proof.Payload

open Idealize.ShloMosaic Idealize.ShloMosaic.ValueIdx Cert.KernelIdeal Cert.KernelIdeal.Gen Cert.Proof.Rates

/-! ## The contraction's index maps -/

theorem lhs_0 (j : S4096x48.Idx) (k : dot_S4096x32_S32x48_S4096x48_1_0_0_1_n_n.contr.Idx) :
    (dot_S4096x32_S32x48_S4096x48_1_0_0_1_n_n.lhsIdx j k 0 : ℕ) = j 0 := by
  simp [DotDims.lhsIdx, dot_S4096x32_S32x48_S4096x48_1_0_0_1_n_n]; rfl
theorem lhs_1 (j : S4096x48.Idx) (k : dot_S4096x32_S32x48_S4096x48_1_0_0_1_n_n.contr.Idx) :
    (dot_S4096x32_S32x48_S4096x48_1_0_0_1_n_n.lhsIdx j k 1 : ℕ) = k ⟨0, by decide⟩ := by
  simp [DotDims.lhsIdx, dot_S4096x32_S32x48_S4096x48_1_0_0_1_n_n]; rfl
theorem rhs_0 (j : S4096x48.Idx) (k : dot_S4096x32_S32x48_S4096x48_1_0_0_1_n_n.contr.Idx) :
    (dot_S4096x32_S32x48_S4096x48_1_0_0_1_n_n.rhsIdx j k 0 : ℕ) = k ⟨0, by decide⟩ := by
  simp [DotDims.rhsIdx, dot_S4096x32_S32x48_S4096x48_1_0_0_1_n_n]; rfl
theorem rhs_1 (j : S4096x48.Idx) (k : dot_S4096x32_S32x48_S4096x48_1_0_0_1_n_n.contr.Idx) :
    (dot_S4096x32_S32x48_S4096x48_1_0_0_1_n_n.rhsIdx j k 1 : ℕ) = j 1 := by
  simp [DotDims.rhsIdx, dot_S4096x32_S32x48_S4096x48_1_0_0_1_n_n]; rfl

/-- The block product at (p, q): the sum over the 32 columns k of state[p, k] · table[k, q]. -/
theorem product_apply (x0 : FVec Ideal S4096x32 .f32) (w : FVec Ideal S32x48 .f32) (p : Fin 4096) (q : Fin 48) :
    matmul dot_S4096x32_S32x48_S4096x48_1_0_0_1_n_n (some .fp32) x0 w (constant S4096x48 .f32 0x00000000#32) (ix2 p q)
      = ∑ k : Fin 32, x0 (ix2 p k) * w (ix2 k q) := by
  show FloatOps.matmul dot_S4096x32_S32x48_S4096x48_1_0_0_1_n_n (some .fp32) x0 w (constant S4096x48 .f32 0x00000000#32) (ix2 p q) = _
  rw [Ideal.matmul_constant_zero_apply,
    ← Equiv.sum_comp (contrEquiv1 dot_S4096x32_S32x48_S4096x48_1_0_0_1_n_n 32 rfl rfl).symm]
  refine Finset.sum_congr rfl fun k _ => ?_
  have hk := contrEquiv1_symm_val dot_S4096x32_S32x48_S4096x48_1_0_0_1_n_n 32 rfl rfl k
  have hl : dot_S4096x32_S32x48_S4096x48_1_0_0_1_n_n.lhsIdx (ix2 p q)
      ((contrEquiv1 dot_S4096x32_S32x48_S4096x48_1_0_0_1_n_n 32 rfl rfl).symm k) = ix2 p k := by
    funext a; apply Fin.ext
    match a with
    | ⟨0, _⟩ => exact lhs_0 _ _
    | ⟨1, _⟩ => exact (lhs_1 _ _).trans hk
  have hr : dot_S4096x32_S32x48_S4096x48_1_0_0_1_n_n.rhsIdx (ix2 p q)
      ((contrEquiv1 dot_S4096x32_S32x48_S4096x48_1_0_0_1_n_n 32 rfl rfl).symm k) = ix2 k q := by
    funext a; apply Fin.ext
    match a with
    | ⟨0, _⟩ => exact (rhs_0 _ _).trans hk
    | ⟨1, _⟩ => exact rhs_1 _ _
  rw [hl, hr]

/-- The first payload at (p, q): the rate over barrier[p, q] from the contracted state. -/
theorem pay1_apply (x0 : Vec Ideal S4096x32 .f32) (x1 : Vec Ideal S4096x48 .f32) (x2 : Vec Ideal S32x48 .f32)
    (p : Fin 4096) (q : Fin 48) :
    k0_pay1 x0 x1 x2 (ix2 p q) = rate (x1 (ix2 p q)) (∑ k : Fin 32, x0 (ix2 p k) * x2 (ix2 k q)) := by
  unfold k0_pay1
  rw [shapeCast_self]
  simp only [mulf, subf, exp, broadcast]
  rw [product_apply]
  simp only [Ideal.mulf_def, Ideal.subf_def, Ideal.exp_def, Ideal.ofBits_def, zero_word_sub]
  unfold rate pref invRT
  rfl

/-- The reversibility row broadcast down the block reads the row at column q. -/
theorem row_apply (x4 : Vec Ideal S1x48 .f32) (p : Fin 4096) (q : Fin 48) :
    broadcastTo S4096x48 x4 broadcasts_S1x48_S4096x48 (ix2 p q) = x4 (ix2 (0 : Fin 1) q) := by
  refine broadcastTo_apply x4 broadcasts_S1x48_S4096x48 (ix2 p q) (ix2 (0 : Fin 1) q) fun a => ?_
  match a with
  | ⟨0, _⟩ => rfl
  | ⟨1, _⟩ => rfl

/-- The second payload at (p, q): the rate from the contracted state, times the reversibility entry of column q. -/
theorem pay2_apply (x0 : Vec Ideal S4096x32 .f32) (x1 : Vec Ideal S4096x48 .f32) (x3 : Vec Ideal S32x48 .f32)
    (x4 : Vec Ideal S1x48 .f32) (p : Fin 4096) (q : Fin 48) :
    k0_pay2 x0 x1 x3 x4 (ix2 p q)
      = rate (x1 (ix2 p q)) (∑ k : Fin 32, x0 (ix2 p k) * x3 (ix2 k q)) * x4 (ix2 (0 : Fin 1) q) := by
  unfold k0_pay2
  rw [shapeCast_self, shapeCast_self]
  simp only [mulf, subf, exp, broadcast]
  rw [product_apply, row_apply]
  simp only [Ideal.mulf_def, Ideal.subf_def, Ideal.exp_def, Ideal.ofBits_def, zero_word_sub]
  unfold rate pref invRT
  rfl

end Cert.Proof.Payload

end
-- ==== Proof.Tables.lean ====
/-
  The three small tables the host builds before the kernel runs, read at an index. The table `onehot(idx)ᵀ` of shape
  [32, 48] holds at (k, q) the indicator "the word idx[q] is k" as a float; the reversibility row of shape [1, 48] holds
  at (0, q) the bit reversible[q] as a float.
-/
import proofs.«409258_j16604343567213_1_alg».proof.Proof.Gen.KernelIdeal.Frame
import Idealize.ShloMosaic.Lib.StableHlo.Run
import Idealize.ShloMosaic.Lib.Pipeline.Value
import Idealize.ShloMosaic.Lib.ValueIdx

noncomputable section

namespace Cert.Proof.Tables

open Idealize.ShloMosaic Idealize.ShloMosaic.ValueIdx Idealize.ShloMosaic.TcCoe Idealize.SL.Sem
open Cert.KernelIdeal Cert.KernelIdeal.Gen Idealize.ShloMosaic.StableHlo

/-- The transposed one-hot table of a vector of 48 words, as the host computes it: compare each word, laid along the rows,
    with the column position, and convert the bit to a float; then transpose. -/
def onehotT (idx : IVec S48 32) : FVec Ideal S32x48 .f32 :=
  transpose S32x48 [1, 0]
    (uitofp .f32 (cmpi .eq
      (broadcastInDim S48x32 ![0, 1] bcast_S48x1_S48x32_0_1 (broadcastInDim S48x1 ![0] bcast_S48_S48x1_0 idx))
      (broadcastInDim S48x32 ![0, 1] bcast_S1x32_S48x32_0_1 (iotaInDim S1x32 32 1))))
    transposes_S48x32_S32x48_1_0

/-- The reversibility bits as a [1, 48] row of floats. -/
def bitRow (r : IVec S48 1) : FVec Ideal S1x48 .f32 :=
  shapeCast S1x48 (uitofp .f32 r) shapeCasts_S48_S1x48

/-- A vector laid along the rows of a [48, 32] rectangle reads, at (q, k), the vector at q. -/
theorem rows_apply (v : IVec S48 32) (q : Fin 48) (k : Fin 32) :
    broadcastInDim S48x32 ![0, 1] bcast_S48x1_S48x32_0_1 (broadcastInDim S48x1 ![0] bcast_S48_S48x1_0 v) (ix2 q k) = v (ix1 q) :=
  (broadcastInDim_apply _ bcast_S48x1_S48x32_0_1 _ (ix2 q k) (ix2 q (0 : Fin 1)) (fun a => match a with
    | ⟨0, _⟩ => by show q.val = if (48 : Nat) = 1 then 0 else q.val; rw [if_neg (by decide)]
    | ⟨1, _⟩ => by show 0 = if (1 : Nat) = 1 then 0 else k.val; rw [if_pos rfl])).trans
  (broadcastInDim_apply _ bcast_S48_S48x1_0 v (ix2 q (0 : Fin 1)) (ix1 q) (fun a => match a with
    | ⟨0, _⟩ => by show q.val = if (48 : Nat) = 1 then 0 else q.val; rw [if_neg (by decide)]))

/-- The column positions laid down the rectangle read, at (q, k), the word k. -/
theorem positions_apply (q : Fin 48) (k : Fin 32) :
    broadcastInDim S48x32 ![0, 1] bcast_S1x32_S48x32_0_1 (iotaInDim S1x32 32 1) (ix2 q k) = BitVec.ofNat 32 k.val :=
  broadcastInDim_apply _ bcast_S1x32_S48x32_0_1 (iotaInDim S1x32 32 1) (ix2 q k) (ix2 (0 : Fin 1) k) (fun a => match a with
    | ⟨0, _⟩ => by show 0 = if (1 : Nat) = 1 then 0 else q.val; rw [if_pos rfl]
    | ⟨1, _⟩ => by show k.val = if (32 : Nat) = 1 then 0 else k.val; rw [if_neg (by decide)])

/-- The transposed one-hot table at (k, q): the indicator of "word q is k", as a float. -/
theorem onehotT_apply (idx : IVec S48 32) (k : Fin 32) (q : Fin 48) :
    onehotT idx (ix2 k q) = (((IntOp.cmpi .eq (idx (ix1 q)) (BitVec.ofNat 32 k.val)).toNat : ℝ) : EReal) := by
  unfold onehotT
  rw [transpose_apply [1, 0] _ transposes_S48x32_S32x48_1_0 (ix2 k q) (ix2 q k) (fun b => match b with
    | ⟨0, _⟩ => rfl
    | ⟨1, _⟩ => rfl)]
  show (((IntOp.cmpi .eq
      (broadcastInDim S48x32 ![0, 1] bcast_S48x1_S48x32_0_1 (broadcastInDim S48x1 ![0] bcast_S48_S48x1_0 idx) (ix2 q k))
      (broadcastInDim S48x32 ![0, 1] bcast_S1x32_S48x32_0_1 (iotaInDim S1x32 32 1) (ix2 q k))).toNat : ℝ) : EReal) = _
  rw [rows_apply, positions_apply]

/-- The reversibility row at (0, q): the bit of transition q, as a float. -/
theorem bitRow_apply (r : IVec S48 1) (q : Fin 48) :
    bitRow r (ix2 (0 : Fin 1) q) = (((r (ix1 q)).toNat : ℝ) : EReal) := by
  unfold bitRow
  rw [shapeCast_apply (uitofp .f32 r) shapeCasts_S48_S1x48 (ix2 (0 : Fin 1) q) (ix1 q) (by
    rw [Shape.rowMajor_val_two, Shape.rowMajor_val_one]
    show q.val = 0 * 48 + q.val
    omega)]
  rfl

variable (m : (ℓ : Loc nD τ sig) → Buf (Elt Ideal) ℓ)

/-- The region finds the first table at the one-hot table of the `from` words. -/
theorem table_from (c : Dev nD) :
    (V m c main_v1 : S32x48.Idx → EReal) = onehotT (m ((c : Thread nD τ).loc main_arg2)) := by
  dsimp only [Gen.V]
  simp only [hostOps0, hostOps0_1, hostOps0_2, hostOps0_3, List.flatten_cons, List.flatten_nil, List.append_nil,
    List.cons_append, List.nil_append]
  after_results
  rfl

/-- The region finds the second table at the one-hot table of the `to` words. -/
theorem table_to (c : Dev nD) :
    (V m c main_v3 : S32x48.Idx → EReal) = onehotT (m ((c : Thread nD τ).loc main_arg3)) := by
  dsimp only [Gen.V]
  simp only [hostOps0, hostOps0_1, hostOps0_2, hostOps0_3, List.flatten_cons, List.flatten_nil, List.append_nil,
    List.cons_append, List.nil_append]
  after_results
  rfl

/-- The region finds the reversibility row at the bits of `reversible`. -/
theorem row_rev (c : Dev nD) :
    (V m c main_v5 : S1x48.Idx → EReal) = bitRow (m ((c : Thread nD τ).loc main_arg4)) := by
  dsimp only [Gen.V]
  simp only [hostOps0, hostOps0_1, hostOps0_2, hostOps0_3, List.flatten_cons, List.flatten_nil, List.append_nil,
    List.cons_append, List.nil_append]
  after_results
  rfl

end Cert.Proof.Tables

end
-- ==== Proof.OneHot.lean ====
/-
  The one-hot contraction. A row of extended reals multiplied entry by entry with the indicator of "the word w names
  column k" and summed over the columns is the row's entry at the column w names: every other product is x · 0 = 0
  on the extended reals, whatever x is.
-/
import Idealize.ShloMosaic.PureOps.Ideal
import Idealize.ShloMosaic.Lib.ValueIdx

noncomputable section

namespace Cert.Proof.OneHot

open Idealize.ShloMosaic

/-- The indicator word "w = k" as a number: 1 when the word w is k, else 0. -/
theorem indicator_eq (w : BitVec 32) (k : ℕ) (hk : k < 2 ^ 32) :
    (((IntOp.cmpi .eq w (BitVec.ofNat 32 k)).toNat : ℝ) : EReal) = if w.toNat = k then 1 else 0 := by
  unfold IntOp.cmpi
  by_cases h : w.toNat = k
  · have e : w = BitVec.ofNat 32 k := BitVec.eq_of_toNat_eq (by rw [h, BitVec.toNat_ofNat, Nat.mod_eq_of_lt hk])
    rw [if_pos h, e]
    simp
  · have e : ¬ w = BitVec.ofNat 32 k := fun e => h (by rw [e, BitVec.toNat_ofNat, Nat.mod_eq_of_lt hk])
    rw [if_neg h]
    simp [e]

/-- The contraction of a row with the one-hot column of the word w is the row's entry at column w. -/
theorem onehot_sum {n : ℕ} (hn : n ≤ 2 ^ 32) (x : Fin n → EReal) (w : BitVec 32) (hw : w.toNat < n) :
    ∑ k : Fin n, x k * (((IntOp.cmpi .eq w (BitVec.ofNat 32 k.val)).toNat : ℝ) : EReal) = x ⟨w.toNat, hw⟩ := by
  have : ∀ k : Fin n, x k * (((IntOp.cmpi .eq w (BitVec.ofNat 32 k.val)).toNat : ℝ) : EReal)
      = if (⟨w.toNat, hw⟩ : Fin n) = k then x k else 0 := by
    intro k
    rw [indicator_eq w k.val (lt_of_lt_of_le k.isLt hn)]
    by_cases h : w.toNat = k.val
    · rw [if_pos h, if_pos (Fin.ext h), mul_one]
    · rw [if_neg h, if_neg (fun e => h (congrArg Fin.val e)), mul_zero]
  rw [Finset.sum_congr rfl (fun k _ => this k), Finset.sum_ite_eq]
  simp

end Cert.Proof.OneHot

end
-- ==== Proof.KernelValue.lean ====
/-
  The kernel's two result arrays. Grid point t stages rows [4096·t, 4096·t + 4096) of the state and barrier matrices
  and the three small tables whole, and writes back rows [4096·t, 4096·t + 4096) of both results. In a block the
  product of the state rows with a one-hot table is the state at the column each word names (the words are below 32
  under the precondition), so what point t writes back is block t of the arrays `Rates.fwd` and `Rates.rev`; the 256
  blocks tile the result arrays, which therefore end holding those two arrays.
-/
import proofs.«409258_j16604343567213_1_alg».proof.Proof.Gen.KernelIdeal.Value
import proofs.«409258_j16604343567213_1_alg».proof.Proof.Payload
import proofs.«409258_j16604343567213_1_alg».proof.Proof.Tables
import proofs.«409258_j16604343567213_1_alg».proof.Proof.OneHot

noncomputable section

namespace Cert.Proof.KernelValue

open Idealize.ShloMosaic Idealize.ShloMosaic.ValueIdx Idealize.ShloMosaic.TcCoe Idealize.SL.Sem
open Cert.KernelIdeal Cert.KernelIdeal.Gen Cert.KernelIdeal.Value
open Cert.Proof.Rates Cert.Proof.Payload Cert.Proof.Tables Cert.Proof.OneHot
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 256 points. -/
theorem pt_lt (t : Fin cfg0.N) : t.val < 256 := lt_of_lt_of_eq t.isLt N_0

/-- The array row that row p of point t's blocks is. -/
def row (t : Fin cfg0.N) (p : Fin 4096) : Fin 1048576 := ⟨t.val * 4096 + p.val, by have := pt_lt t; have := p.isLt; omega⟩

/-- The printed index maps, decided over the grid: the two matrices' and the two results' block index is (t, 0), the three
    tables' is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read off the arrays -/

theorem state_blk (c : Dev nD) (t : Fin cfg0.N) (p : Fin 4096) (k : Fin 32) :
    iblk m c 0 t (ix2 p k) = m ((c : Thread nD τ).loc main_arg0) (ix2 (row t p) k) := by
  obtain ⟨e0, e1, -⟩ := idx_facts t
  rw [← V_main_arg0 m c]
  show V m c main_arg0 (((cfg0.win 0).blk t).view.emb (ix2 p k)) = V m c main_arg0 (ix2 (row t p) k)
  refine congrArg (V m c main_arg0) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 32 + 1 * k.val = k.val; rw [e1]; omega

theorem barrier_blk (c : Dev nD) (t : Fin cfg0.N) (p : Fin 4096) (q : Fin 48) :
    iblk m c 1 t (ix2 p q) = m ((c : Thread nD τ).loc main_arg1) (ix2 (row t p) q) := by
  obtain ⟨-, -, e0, e1, -⟩ := idx_facts t
  rw [← V_main_arg1 m c]
  show V m c main_arg1 (((cfg0.win 1).blk t).view.emb (ix2 p q)) = V m c main_arg1 (ix2 (row t p) q)
  refine congrArg (V m c main_arg1) (funext fun a => Fin.ext ?_)
  match a with
  | ⟨0, _⟩ => show win0_1.index t (0 : Fin 2) * 4096 + 1 * p.val = t.val * 4096 + p.val; rw [e0]; omega
  | ⟨1, _⟩ => show win0_1.index t (1 : Fin 2) * 48 + 1 * q.val = q.val; rw [e1]; omega

theorem from_blk (c : Dev nD) (t : Fin cfg0.N) (k : Fin 32) (q : Fin 48) :
    iblk m c 2 t (ix2 k q) = onehotT (m ((c : Thread nD τ).loc main_arg2)) (ix2 k q) := by
  obtain ⟨-, -, -, -, e0, e1, -⟩ := idx_facts t
  rw [← table_from m c]
  show V m c main_v1 (((cfg0.win 2).blk t).view.emb (ix2 k q)) = V m c main_v1 (ix2 k q)
  refine congrArg (V m c main_v1) (funext fun a => Fin.ext ?_)
  match a with
  | ⟨0, _⟩ => show win0_2.index t (0 : Fin 2) * 32 + 1 * k.val = k.val; rw [e0]; omega
  | ⟨1, _⟩ => show win0_2.index t (1 : Fin 2) * 48 + 1 * q.val = q.val; rw [e1]; omega

theorem to_blk (c : Dev nD) (t : Fin cfg0.N) (k : Fin 32) (q : Fin 48) :
    iblk m c 3 t (ix2 k q) = onehotT (m ((c : Thread nD τ).loc main_arg3)) (ix2 k q) := by
  obtain ⟨-, -, -, -, -, -, e0, e1, -⟩ := idx_facts t
  rw [← table_to m c]
  show V m c main_v3 (((cfg0.win 3).blk t).view.emb (ix2 k q)) = V m c main_v3 (ix2 k q)
  refine congrArg (V m c main_v3) (funext fun a => Fin.ext ?_)
  match a with
  | ⟨0, _⟩ => show win0_3.index t (0 : Fin 2) * 32 + 1 * k.val = k.val; rw [e0]; omega
  | ⟨1, _⟩ => show win0_3.index t (1 : Fin 2) * 48 + 1 * q.val = q.val; rw [e1]; omega

theorem rev_blk (c : Dev nD) (t : Fin cfg0.N) (q : Fin 48) :
    iblk m c 4 t (ix2 (0 : Fin 1) q) = bitRow (m ((c : Thread nD τ).loc main_arg4)) (ix2 (0 : Fin 1) q) := by
  obtain ⟨-, -, -, -, -, -, -, -, e0, e1, -⟩ := idx_facts t
  rw [← row_rev m c]
  show V m c main_v5 (((cfg0.win 4).blk t).view.emb (ix2 (0 : Fin 1) q)) = V m c main_v5 (ix2 (0 : Fin 1) q)
  refine congrArg (V m c main_v5) (funext fun a => Fin.ext ?_)
  match a with
  | ⟨0, _⟩ => show win0_4.index t (0 : Fin 2) * 1 + 1 * 0 = 0; rw [e0]
  | ⟨1, _⟩ => show win0_4.index t (1 : Fin 2) * 48 + 1 * q.val = q.val; rw [e1]; omega

/-! ## One block of each result -/

/-- The state rows contracted with a one-hot table: the state at the column the word names. -/
theorem contracted (X : SState.Idx → EReal) (idx : IVec S48 32) (hidx : ∀ j : Fin 48, (idx (ix1 j)).toNat < 32)
    (r : Fin 1048576) (q : Fin 48) :
    ∑ k : Fin 32, X (ix2 r k) * onehotT idx (ix2 k q) = X (ix2 r (col (idx (ix1 q)))) := by
  simp only [onehotT_apply]
  rw [onehot_sum (n := 32) (by norm_num) (fun k => X (ix2 r k)) (idx (ix1 q)) (hidx q), col_eq _ (hidx q)]

/-- The first payload of point t's blocks at (p, q) is the forward rate of row `row t p`, transition q. -/
theorem fwd_block (hfi : ∀ (c : Dev nD) (j : Fin 48), (m ((c : Thread nD τ).loc main_arg2) (ix1 j)).toNat < 32) (c : Dev nD) (t : Fin cfg0.N)
    (p : Fin 4096) (q : Fin 48) :
    k0_pay1 (iblk m c 0 t) (iblk m c 1 t) (iblk m c 2 t) (ix2 p q)
      = fwdAt (m ((c : Thread nD τ).loc main_arg0)) (m ((c : Thread nD τ).loc main_arg1)) (m ((c : Thread nD τ).loc main_arg2))
          (row t p) q := by
  refine (pay1_apply (iblk m c 0 t) (iblk m c 1 t) (iblk m c 2 t) p q).trans ?_
  simp only [state_blk, barrier_blk, from_blk]
  rw [contracted _ _ (hfi c)]
  rfl

/-- The second payload of point t's blocks at (p, q) is the reverse rate of row `row t p`, transition q. -/
theorem rev_block (hti : ∀ (c : Dev nD) (j : Fin 48), (m ((c : Thread nD τ).loc main_arg3) (ix1 j)).toNat < 32) (c : Dev nD) (t : Fin cfg0.N)
    (p : Fin 4096) (q : Fin 48) :
    k0_pay2 (iblk m c 0 t) (iblk m c 1 t) (iblk m c 3 t) (iblk m c 4 t) (ix2 p q)
      = revAt (m ((c : Thread nD τ).loc main_arg0)) (m ((c : Thread nD τ).loc main_arg1)) (m ((c : Thread nD τ).loc main_arg3))
          (m ((c : Thread nD τ).loc main_arg4)) (row t p) q := by
  refine (pay2_apply (iblk m c 0 t) (iblk m c 1 t) (iblk m c 3 t) (iblk m c 4 t) p q).trans ?_
  simp only [state_blk, barrier_blk, to_blk, rev_blk]
  rw [contracted _ _ (hti c), bitRow_apply, mul_bit]
  rfl

/-! ## What a point writes back, and the arrays after the run -/

/-- The array index of entry y of point t's result block. -/
theorem emb5 (t : Fin cfg0.N) (p : Fin 4096) (q : Fin 48) :
    ((cfg0.win 5).blk t).view.emb (ix2 p q) = ix2 (row t p) q := by
  obtain ⟨-, -, -, -, -, -, -, -, -, -, e0, e1, -⟩ := idx_facts t
  funext a; apply Fin.ext
  match a with
  | ⟨0, _⟩ => show win0_5.index t (0 : Fin 2) * 4096 + 1 * p.val = t.val * 4096 + p.val; rw [e0]; omega
  | ⟨1, _⟩ => show win0_5.index t (1 : Fin 2) * 48 + 1 * q.val = q.val; rw [e1]; omega

theorem emb6 (t : Fin cfg0.N) (p : Fin 4096) (q : Fin 48) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 4096 + 1 * p.val = t.val * 4096 + p.val; rw [e0]; omega
  | ⟨1, _⟩ => show win0_6.index t (1 : Fin 2) * 48 + 1 * q.val = q.val; rw [e1]; omega

/-- What point t writes back to the first result is block t of the forward rates. -/
theorem flushed5_eq (hfi : ∀ (c : Dev nD) (j : Fin 48), (m ((c : Thread nD τ).loc main_arg2) (ix1 j)).toNat < 32) (c : Dev nD) (t : Fin cfg0.N) :
    (dats m 0 c).flushed 5 t = ((cfg0.win 5).blk t).view.read (Elt Ideal)
      (fwd (m ((c : Thread nD τ).loc main_arg0)) (m ((c : Thread nD τ).loc main_arg1)) (m ((c : Thread nD τ).loc main_arg2))) := by
  rw [flushed5]
  unfold out0_5
  rw [View.canon_unit_zero hz]
  simp only [View.ld_unit_zero (S := S4096x32) hz, View.ld_unit_zero (S := S4096x48) hz, View.ld_unit_zero (S := S32x48) hz]
  funext y
  obtain ⟨p, q, rfl⟩ : ∃ (p : Fin 4096) (q : Fin 48), y = ix2 p q := ⟨y 0, y 1, eq_ix2 y⟩
  show k0_pay1 (iblk m c 0 t) (iblk m c 1 t) (iblk m c 2 t) (ix2 p q)
    = fwd (m ((c : Thread nD τ).loc main_arg0)) (m ((c : Thread nD τ).loc main_arg1)) (m ((c : Thread nD τ).loc main_arg2))
        (((cfg0.win 5).blk t).view.emb (ix2 p q))
  rw [emb5, fwd_apply]
  exact fwd_block m hfi c t p q

/-- What point t writes back to the second result is block t of the reverse rates. -/
theorem flushed6_eq (hti : ∀ (c : Dev nD) (j : Fin 48), (m ((c : Thread nD τ).loc main_arg3) (ix1 j)).toNat < 32) (c : Dev nD) (t : Fin cfg0.N) :
    (dats m 0 c).flushed 6 t = ((cfg0.win 6).blk t).view.read (Elt Ideal)
      (rev (m ((c : Thread nD τ).loc main_arg0)) (m ((c : Thread nD τ).loc main_arg1)) (m ((c : Thread nD τ).loc main_arg3))
        (m ((c : Thread nD τ).loc main_arg4))) := by
  rw [flushed6]
  unfold out0_6
  rw [View.canon_unit_zero hz]
  simp only [View.ld_unit_zero (S := S4096x32) hz, View.ld_unit_zero (S := S4096x48) hz, View.ld_unit_zero (S := S32x48) hz,
    View.ld_unit_zero (S := S1x48) hz]
  funext y
  obtain ⟨p, q, rfl⟩ : ∃ (p : Fin 4096) (q : Fin 48), y = ix2 p q := ⟨y 0, y 1, eq_ix2 y⟩
  show k0_pay2 (iblk m c 0 t) (iblk m c 1 t) (iblk m c 3 t) (iblk m c 4 t) (ix2 p q)
    = rev (m ((c : Thread nD τ).loc main_arg0)) (m ((c : Thread nD τ).loc main_arg1)) (m ((c : Thread nD τ).loc main_arg3))
        (m ((c : Thread nD τ).loc main_arg4)) (((cfg0.win 6).blk t).view.emb (ix2 p q))
  rw [emb6, rev_apply]
  exact rev_block m hti c t p q

/-- An index of the first result is in point t's block iff each coordinate is in the block's range on its axis. -/
theorem mem_blk5 (t : Fin cfg0.N) (i : S1048576x48.Idx) :
    i ∈ ((cfg0.win 5).blk t).view.set ↔ ∀ a : Fin 2, win0_5.index t a * S4096x48.size a ≤ (i a).val
      ∧ (i a).val < win0_5.index t a * S4096x48.size a + S4096x48.size a := by
  show i ∈ ((View.whole main_v6_0).slice (win0_5.rect t)).set ↔ _
  rw [View.set_slice_whole, Rect.mem_set_unit]
  exact Iff.rfl

theorem mem_blk6 (t : Fin cfg0.N) (i : S1048576x48.Idx) :
    i ∈ ((cfg0.win 6).blk t).view.set ↔ ∀ a : Fin 2, win0_6.index t a * S4096x48.size a ≤ (i a).val
      ∧ (i a).val < win0_6.index t a * S4096x48.size a + S4096x48.size a := by
  show i ∈ ((View.whole main_v6_1).slice (win0_6.rect t)).set ↔ _
  rw [View.set_slice_whole, Rect.mem_set_unit]
  exact Iff.rfl

/-- The point whose blocks hold array row r: r / 4096. -/
def ptOf (i : S1048576x48.Idx) : Fin cfg0.N :=
  ⟨(i 0).val / 4096, by rw [show cfg0.N = 256 from N_0]; have : (i 0).val < 1048576 := (i 0).isLt; omega⟩

/-- Every index of the first result is in some point's block: the 256 row blocks tile the array. -/
theorem cover5 (i : S1048576x48.Idx) : ∃ t : Fin cfg0.N, (cfg0.win 5).flush t = true ∧ i ∈ ((cfg0.win 5).blk t).view.set := by
  have hi1 : (i 1).val < 48 := (i 1).isLt
  obtain ⟨-, -, -, -, -, -, -, -, -, -, e0, e1, -⟩ := idx_facts (ptOf i)
  refine ⟨ptOf i, flush0_5 _, (mem_blk5 _ i).2 fun a => ?_⟩
  match a with
  | ⟨0, _⟩ =>
    show win0_5.index (ptOf i) (0 : Fin 2) * 4096 ≤ (i 0).val ∧ (i 0).val < win0_5.index (ptOf i) (0 : Fin 2) * 4096 + 4096
    rw [e0]
    show (i 0).val / 4096 * 4096 ≤ (i 0).val ∧ (i 0).val < (i 0).val / 4096 * 4096 + 4096
    omega
  | ⟨1, _⟩ =>
    show win0_5.index (ptOf i) (1 : Fin 2) * 48 ≤ (i 1).val ∧ (i 1).val < win0_5.index (ptOf i) (1 : Fin 2) * 48 + 48
    rw [e1]; omega

theorem cover6 (i : S1048576x48.Idx) : ∃ t : Fin cfg0.N, (cfg0.win 6).flush t = true ∧ i ∈ ((cfg0.win 6).blk t).view.set := by
  have hi1 : (i 1).val < 48 := (i 1).isLt
  obtain ⟨-, -, -, -, -, -, -, -, -, -, -, -, e0, e1⟩ := idx_facts (ptOf i)
  refine ⟨ptOf i, flush0_6 _, (mem_blk6 _ i).2 fun a => ?_⟩
  match a with
  | ⟨0, _⟩ =>
    show win0_6.index (ptOf i) (0 : Fin 2) * 4096 ≤ (i 0).val ∧ (i 0).val < win0_6.index (ptOf i) (0 : Fin 2) * 4096 + 4096
    rw [e0]
    show (i 0).val / 4096 * 4096 ≤ (i 0).val ∧ (i 0).val < (i 0).val / 4096 * 4096 + 4096
    omega
  | ⟨1, _⟩ =>
    show win0_6.index (ptOf i) (1 : Fin 2) * 48 ≤ (i 1).val ∧ (i 1).val < win0_6.index (ptOf i) (1 : Fin 2) * 48 + 48
    rw [e1]; omega

/-- The first result array after the run is the array of forward rates. -/
theorem final5 (hfi : ∀ (c : Dev nD) (j : Fin 48), (m ((c : Thread nD τ).loc main_arg2) (ix1 j)).toNat < 32) (c : Dev nD) :
    (dats m 0 c).arrAt 5 cfg0.N
      = fwd (m ((c : Thread nD τ).loc main_arg0)) (m ((c : Thread nD τ).loc main_arg1)) (m ((c : Thread nD τ).loc main_arg2)) :=
  (dats m 0 c).arrAt_eq_of_cover 5 _ (fun t _ => flushed5_eq m hfi c t) cover5

/-- The second result array after the run is the array of reverse rates. -/
theorem final6 (hti : ∀ (c : Dev nD) (j : Fin 48), (m ((c : Thread nD τ).loc main_arg3) (ix1 j)).toNat < 32) (c : Dev nD) :
    (dats m 0 c).arrAt 6 cfg0.N
      = rev (m ((c : Thread nD τ).loc main_arg0)) (m ((c : Thread nD τ).loc main_arg1)) (m ((c : Thread nD τ).loc main_arg3))
          (m ((c : Thread nD τ).loc main_arg4)) :=
  (dats m 0 c).arrAt_eq_of_cover 6 _ (fun t _ => flushed6_eq m hti c t) cover6

/-- The kernel's run, read: both results at the rate arrays of the arguments, the arguments unchanged. -/
theorem run (hfi : ∀ (c : Dev nD) (j : Fin 48), (m ((c : Thread nD τ).loc main_arg2) (ix1 j)).toNat < 32)
    (hti : ∀ (c : Dev nD) (j : Fin 48), (m ((c : Thread nD τ).loc main_arg3) (ix1 j)).toNat < 32) :
    θ_run defs (onTc (τ := τ) (main (F := Ideal))) ⟨m, fun _ => 0, ρ⟩ fun r => ∀ c : Dev nD,
      r.2.mem ((c : Thread nD τ).loc main_v6_0)
        = fwd (m ((c : Thread nD τ).loc main_arg0)) (m ((c : Thread nD τ).loc main_arg1)) (m ((c : Thread nD τ).loc main_arg2))
      ∧ r.2.mem ((c : Thread nD τ).loc main_v6_1)
        = rev (m ((c : Thread nD τ).loc main_arg0)) (m ((c : Thread nD τ).loc main_arg1)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m hfi c), (h c).2.1.trans (final6 m hti c), (h c).2.2⟩)
    (run_blocks m ρ)

end Cert.Proof.KernelValue

end
-- ==== Proof.GatherCols.lean ====
/-
  A column gather read at an index. For a matrix `x : [N0, N1]` and a column of start indices `idx : [C, 1]`, the
  gather with offset axis 0, collapsed axis 1, start index map [1], index vector axis 1 and slices [N0, 1] is
  `x[:, idx]`: result element (b, j) is `x` at row b and at the column that the word `idx[j, 0]`, read signed and
  clamped into [0, N1 - 1], names.
-/
import Idealize.ShloMosaic.Lib.ValueIdx

noncomputable section

namespace Cert.Proof.GatherCols

open Idealize.ShloMosaic Idealize.ShloMosaic.ValueIdx

variable {α : Type}

/-- The dimension numbers of `x[:, idx]`; their conditions `wf` are decided on a program's literal shapes. -/
abbrev colDims (N0 N1 C : Nat)
    (wf : GatherDims.WF ⟨2, ![N0, N1]⟩ ⟨2, ![C, 1]⟩ ⟨2, ![N0, C]⟩ [0] [1] [] [1] [] 1 ![N0, 1]) :
    GatherDims ⟨2, ![N0, N1]⟩ ⟨2, ![C, 1]⟩ ⟨2, ![N0, C]⟩ where
  offsetDims := [0]
  collapsedSliceDims := [1]
  operandBatchingDims := []
  startIndicesBatchingDims := []
  startIndexMap := [1]
  indexVectorDim := 1
  sliceSizes := ![N0, 1]
  wf := wf

/-- Result element (b, j) of the column gather is the operand at row b, column `clamp idx[j, 0]`. -/
theorem gather_cols_apply {N0 N1 C w : Nat} (hN : 0 < N1)
    (wf : GatherDims.WF ⟨2, ![N0, N1]⟩ ⟨2, ![C, 1]⟩ ⟨2, ![N0, C]⟩ [0] [1] [] [1] [] 1 ![N0, 1])
    (x : (⟨2, ![N0, N1]⟩ : Shape).Idx → α) (idx : IVec ⟨2, ![C, 1]⟩ w) (b : Fin N0) (j : Fin C) :
    Host.gather (colDims N0 N1 C wf) x idx (ix2 b j)
      = x (ix2 b ⟨min (idx (ix2 j (0 : Fin 1))).toInt.toNat (N1 - 1), by omega⟩) := by
  unfold Host.gather
  congr 1
  funext a
  refine Fin.ext ?_
  show (colDims N0 N1 C wf).start (ix2 b j) idx a + (colDims N0 N1 C wf).batchCoord (ix2 b j) a
    + (colDims N0 N1 C wf).offCoord (ix2 b j) a = _
  rw [GatherDims.batchCoord_eq_zero _ _ _ List.not_mem_nil]
  match a with
  | ⟨0, _⟩ =>
    have h0 : (0 : Fin 2) ∉ (colDims N0 N1 C wf).startIndexMap :=
      show (0 : Fin 2) ∉ ([1] : List (Fin 2)) by decide
    have hk : (0 : Fin 2) ∈ (colDims N0 N1 C wf).sKept :=
      ((colDims N0 N1 C wf).mem_sKept 0).2 ⟨show (0 : Fin 2) ∉ ([1] : List (Fin 2)) by decide, List.not_mem_nil⟩
    show (colDims N0 N1 C wf).start (ix2 b j) idx 0 + 0 + (colDims N0 N1 C wf).offCoord (ix2 b j) 0 = b.val
    unfold GatherDims.start GatherDims.offCoord
    rw [dif_neg h0, dif_pos hk]
    simp only [Nat.zero_add]
    rfl
  | ⟨1, _⟩ =>
    have h1 : (1 : Fin 2) ∈ (colDims N0 N1 C wf).startIndexMap := List.mem_singleton.mpr rfl
    have hk : (1 : Fin 2) ∉ (colDims N0 N1 C wf).sKept :=
      fun h => (((colDims N0 N1 C wf).mem_sKept 1).1 h).1 (List.mem_singleton.mpr rfl)
    show (colDims N0 N1 C wf).start (ix2 b j) idx 1 + 0 + (colDims N0 N1 C wf).offCoord (ix2 b j) 1 = _
    unfold GatherDims.start GatherDims.offCoord
    rw [dif_pos h1, dif_neg hk]
    have hsi : (colDims N0 N1 C wf).siIdx (ix2 b j) ⟨List.idxOf (1 : Fin 2) (colDims N0 N1 C wf).startIndexMap,
        List.idxOf_lt_length_iff.2 h1⟩ = ix2 j (0 : Fin 1) := by
      funext e; refine Fin.ext ?_
      match e with
      | ⟨0, _⟩ => rfl
      | ⟨1, _⟩ => rfl
    rw [hsi]
    rfl

end Cert.Proof.GatherCols

end
-- ==== Proof.RefValue.lean ====
/-
  The reference, read at an index. Its two results are `pref · exp(-(barrier - state[:, idx]) · invRT)`, the second
  under `where(reversible, ·, 0)`; the column gather `state[:, idx]` wraps a negative word by 32 and clamps into
  [0, 31], both of which do nothing to a word already in [0, 32). So under the precondition the reference's results are
  the arrays `Rates.fwd` and `Rates.rev`.
-/
import proofs.«409258_j16604343567213_1_alg».proof.Proof.Gen.ReferenceIdeal.Read
import proofs.«409258_j16604343567213_1_alg».proof.Proof.GatherCols
import proofs.«409258_j16604343567213_1_alg».proof.Proof.Rates
import Idealize.ShloMosaic.Lib.StableHlo.Predicate

noncomputable section

namespace Cert.Proof.RefValue

open Idealize.ShloMosaic Idealize.ShloMosaic.ValueIdx Cert.ReferenceIdeal Cert.ReferenceIdeal.Read
open Cert.Proof.Rates Cert.Proof.GatherCols

/-- Wrapping a negative word by 32 and clamping into [0, 31] leaves a word of [0, 32) as it is. -/
theorem wrap_clamp (w : BitVec 32) (hw : w.toNat < 32) :
    min (Scalar.select (IntOp.cmpi .slt w 0#32) (IntOp.addi w 32#32) w).toInt.toNat 31 = w.toNat := by
  have hi : w.toInt = w.toNat := StableHlo.Predicate.toInt_eq_toNat_of_lt (by omega)
  have hc : IntOp.cmpi .slt w 0#32 = 0#1 := by
    have hn : ¬ ((w.toNat : ℤ) < 0) := by omega
    unfold IntOp.cmpi
    simp [BitVec.slt, hi, hn]
  rw [hc, select_zero, hi]
  simp
  omega

/-- The printed dimension numbers are those of a column gather. -/
theorem dims_eq : gather_S1048576x32_S48x1_S1048576x48_0_1_n_n_1_1_10485761
    = colDims 1048576 32 48 Facts₀.gather_S1048576x32_S48x1_S1048576x48_0_1_n_n_1_1_10485761_wf := rfl

/-- The wrapped start indices of the first gather, at (j, 0). -/
theorem start_from (fi : IVec S48 32) (j : Fin 48) :
    val_main_v5 (F := Ideal) fi (ix2 j (0 : Fin 1))
      = Scalar.select (IntOp.cmpi .slt (fi (ix1 j)) 0#32) (IntOp.addi (fi (ix1 j)) 32#32) (fi (ix1 j)) := by
  have e : idx_main_v5 (ix2 j (0 : Fin 1)) = ix1 j := funext fun a => Fin.ext (by match a with | ⟨0, _⟩ => rfl)
  rw [val_main_v5_apply, e, val_main_v4_apply, val_main_v1_apply, val_main_v3_apply, val_main_v0_apply, val_main_v2_apply,
    val_main_c_apply, val_main_c_0_apply]

/-- The wrapped start indices of the second gather, at (j, 0). -/
theorem start_to (ti : IVec S48 32) (j : Fin 48) :
    val_main_v12 (F := Ideal) ti (ix2 j (0 : Fin 1))
      = Scalar.select (IntOp.cmpi .slt (ti (ix1 j)) 0#32) (IntOp.addi (ti (ix1 j)) 32#32) (ti (ix1 j)) := by
  have e : idx_main_v12 (ix2 j (0 : Fin 1)) = ix1 j := funext fun a => Fin.ext (by match a with | ⟨0, _⟩ => rfl)
  rw [val_main_v12_apply, e, val_main_v11_apply, val_main_v8_apply, val_main_v10_apply, val_main_v7_apply, val_main_v9_apply,
    val_main_c_1_apply, val_main_c_2_apply]

/-- The first gather at (b, j) is the state at row b, column `from[j]`. -/
theorem gathered_from (x : FVec Ideal S1048576x32 .f32) (fi : IVec S48 32) (hfi : ∀ j : Fin 48, (fi (ix1 j)).toNat < 32)
    (b : Fin 1048576) (j : Fin 48) : val_main_v6 (F := Ideal) x fi (ix2 b j) = x (ix2 b (col (fi (ix1 j)))) := by
  unfold val_main_v6
  rw [dims_eq, gather_cols_apply (by decide)]
  congr 1
  refine congrArg (ix2 b) (Fin.ext ?_)
  show min (val_main_v5 (F := Ideal) fi (ix2 j (0 : Fin 1))).toInt.toNat (32 - 1) = (col (fi (ix1 j))).val
  rw [start_from, col_val _ (hfi j)]
  exact wrap_clamp _ (hfi j)

/-- The second gather at (b, j) is the state at row b, column `to[j]`. -/
theorem gathered_to (x : FVec Ideal S1048576x32 .f32) (ti : IVec S48 32) (hti : ∀ j : Fin 48, (ti (ix1 j)).toNat < 32)
    (b : Fin 1048576) (j : Fin 48) : val_main_v13 (F := Ideal) x ti (ix2 b j) = x (ix2 b (col (ti (ix1 j)))) := by
  unfold val_main_v13
  rw [dims_eq, gather_cols_apply (by decide)]
  congr 1
  refine congrArg (ix2 b) (Fin.ext ?_)
  show min (val_main_v12 (F := Ideal) ti (ix2 j (0 : Fin 1))).toInt.toNat (32 - 1) = (col (ti (ix1 j))).val
  rw [start_to, col_val _ (hti j)]
  exact wrap_clamp _ (hti j)

/-- The reference's first result is the array of forward rates. -/
theorem fwd_eq (x : FVec Ideal S1048576x32 .f32) (bar : FVec Ideal S1048576x48 .f32) (fi : IVec S48 32)
    (hfi : ∀ j : Fin 48, (fi (ix1 j)).toNat < 32) : val_main_v20 (F := Ideal) x bar fi = fwd x bar fi := by
  funext i
  obtain ⟨b, j, rfl⟩ : ∃ (b : Fin 1048576) (j : Fin 48), i = ix2 b j := ⟨i 0, i 1, eq_ix2 i⟩
  rw [val_main_v20_apply, val_main_v19_apply, val_main_cst_3_apply, val_main_v18_apply, val_main_v17_apply, val_main_v15_apply,
    val_main_v14_apply, val_main_v16_apply, val_main_cst_apply, gathered_from x fi hfi b j]
  rfl

/-- The reference's second result is the array of reverse rates. -/
theorem rev_eq (x : FVec Ideal S1048576x32 .f32) (bar : FVec Ideal S1048576x48 .f32) (ti : IVec S48 32) (r : IVec S48 1)
    (hti : ∀ j : Fin 48, (ti (ix1 j)).toNat < 32) : val_main_v30 (F := Ideal) x bar ti r = rev x bar ti r := by
  funext i
  obtain ⟨b, j, rfl⟩ : ∃ (b : Fin 1048576) (j : Fin 48), i = ix2 b j := ⟨i 0, i 1, eq_ix2 i⟩
  have e1 : idx_main_v28 (idx_main_call0_v0 (ix2 b j)) = ix1 j := funext fun a => Fin.ext (by match a with | ⟨0, _⟩ => rfl)
  rw [val_main_v30_apply, val_main_call0_v0_apply, val_main_v28_apply, e1, val_main_v29_apply, val_main_cst_6_apply,
    val_main_v27_apply, val_main_v26_apply, val_main_cst_5_apply, val_main_v25_apply, val_main_v24_apply, val_main_v22_apply,
    val_main_v21_apply, val_main_v23_apply, val_main_cst_4_apply, gathered_to x ti hti b j]
  show Scalar.select (r (ix1 j)) _ _ = revAt x bar ti r b j
  unfold revAt
  by_cases h : r (ix1 j) = 1#1
  · rw [h, select_one, if_pos rfl]
    rfl
  · rw [eq_zero_of_ne_one h, select_zero, if_neg (by decide)]
    exact Ideal.ofBits_zero_f32

end Cert.Proof.RefValue

end
-- ==== Proof.lean ====
/-
  Eyring transition rates: for every row b of a [1048576, 32] matrix of state energies and each of 48 transitions j,

      forward[b, j] = pref · exp(-(barrier[b, j] - state[b, from[j]]) · invRT),
      reverse[b, j] = pref · exp(-(barrier[b, j] - state[b, to[j]]) · invRT) where reversible[j], else 0.

  The reference gathers the columns `state[:, from]`, `state[:, to]` and selects with `where`. The kernel instead
  multiplies each block of 4096 state rows with the transposed one-hot tables of `from` and `to` and multiplies the
  reverse rate by the reversibility bit as a float. On the extended reals the two agree wherever every word of `from`
  and `to` names one of the 32 columns, which the precondition states: a row's product with a one-hot column is the
  entry at the hot position, because x · 0 = 0 and x · 1 = x for EVERY extended real x (so no finiteness is used), and
  v · bit is v or 0 for the same reason. Outside [0, 32) the two differ (the one-hot column of such a word is all zero,
  the gather wraps and clamps), hence the range conjunct.

  The pieces: `IndexRange` reads the range of the index words off the precondition; `Rates` states the two result
  arrays; `RefValue` shows the reference computes them (with `GatherCols`, the column gather at an index);
  `Payload`, `Tables`, `OneHot` and `KernelValue` show the kernel does (the body's arithmetic at an index, the host's
  tables at an index, the one-hot contraction, and the blocks assembled into the arrays).
-/
import proofs.«409258_j16604343567213_1_alg».proof.Defs
import proofs.«409258_j16604343567213_1_alg».proof.Proof.Gen.Kernel
import proofs.«409258_j16604343567213_1_alg».proof.Proof.Gen.Kernel.Skeleton
import proofs.«409258_j16604343567213_1_alg».proof.Proof.Gen.Kernel.Launch
import proofs.«409258_j16604343567213_1_alg».proof.Proof.Gen.Kernel.Points
import proofs.«409258_j16604343567213_1_alg».proof.Proof.Gen.Kernel.Frame
import proofs.«409258_j16604343567213_1_alg».proof.Proof.Gen.KernelIdeal
import proofs.«409258_j16604343567213_1_alg».proof.Proof.Gen.KernelIdeal.Skeleton
import proofs.«409258_j16604343567213_1_alg».proof.Proof.Gen.KernelIdeal.Launch
import proofs.«409258_j16604343567213_1_alg».proof.Proof.Gen.KernelIdeal.Points
import proofs.«409258_j16604343567213_1_alg».proof.Proof.Gen.KernelIdeal.Frame
import proofs.«409258_j16604343567213_1_alg».proof.Proof.Gen.ReferenceIdeal
import proofs.«409258_j16604343567213_1_alg».proof.Proof.Gen.Pre_finite_inputs
import proofs.«409258_j16604343567213_1_alg».proof.Proof.Gen.KernelIdeal.Value
import proofs.«409258_j16604343567213_1_alg».proof.Proof.Gen.ReferenceIdeal.Run
import proofs.«409258_j16604343567213_1_alg».proof.Proof.Gen.ReferenceIdeal.Read
import proofs.«409258_j16604343567213_1_alg».proof.Proof.IndexRange
import proofs.«409258_j16604343567213_1_alg».proof.Proof.KernelValue
import proofs.«409258_j16604343567213_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, with every index word in [0, 32), both programs end with the forward
    and reverse rate arrays of the arguments. -/
theorem algebraic : Cert.algebraic_KernelIdeal_ReferenceIdeal := by
  intro m ρ m' ρ' hpre hagree
  have hw : ∀ (c : Dev Cert.KernelIdeal.nD) (j : Fin 48),
      (m ((c.tc : Thread Cert.KernelIdeal.nD Cert.KernelIdeal.τ).loc Cert.KernelIdeal.main_arg2) (ix1 j)).toNat < 32
      ∧ (m ((c.tc : Thread Cert.KernelIdeal.nD Cert.KernelIdeal.τ).loc Cert.KernelIdeal.main_arg3) (ix1 j)).toNat < 32 :=
    fun c j => Cert.Proof.IndexRange.words_lt _ _ _ _ _ (hpre c) j
  refine ⟨_, _, Cert.Proof.KernelValue.run m ρ (fun c j => (hw c j).1) (fun c j => (hw c j).2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, (hagree c).1, (hagree c).2.1, (hagree c).2.2.1]
    exact Cert.Proof.RefValue.fwd_eq _ _ _ (fun j => (hw c j).1)
  · rw [Cert.ReferenceIdeal.Read.val_main_v30_eq, (hagree c).1, (hagree c).2.1, (hagree c).2.2.2.1, (hagree c).2.2.2.2]
    exact Cert.Proof.RefValue.rev_eq _ _ _ _ (fun j => (hw c j).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
